-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg5 : FVec F S64x128 .f32) (main_arg6 : FVec F S128x64 .f32) (main_arg7 : FVec F S64 .f32) (main_arg8 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S1200000 .f32) (main_arg3 : FVec F S64x128 .f32) (main_arg4 : FVec F S128 .f32) (main_arg5 : FVec F S64x128 .f32) (main_arg6 : FVec F S128x64 .f32) (main_arg7 : FVec F S64 .f32) (main_arg8 : FVec F S128x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1200000x128 : Shape := ⟨2, ![1200000, 128]⟩
abbrev S1x64 : Shape := ⟨2, ![1, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S1200000, .f32⟩
  | .hbm, ⟨15, _⟩ => ⟨S_, .f32⟩
  | .hbm, ⟨16, _⟩ => ⟨S100000, .f32⟩
  | .hbm, ⟨17, _⟩ => ⟨S1200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000x64, .f32⟩
  | .hbm, ⟨35, _⟩ => ⟨S1200000x1, .f32⟩
  | .hbm, ⟨36, _⟩ => ⟨S1200000x64, .f32⟩
  | .hbm, ⟨37, _⟩ => ⟨S1200000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x128, .f32⟩
  | .hbm, ⟨55, _⟩ => ⟨S1200000x1, .f32⟩
  | .hbm, ⟨56, _⟩ => ⟨S1200000x128, .f32⟩
  | .hbm, ⟨57, _⟩ => ⟨S1200000x128, .f32⟩
  | .hbm, ⟨58, _⟩ => ⟨S_, .f32⟩
  | .hbm, ⟨59, _⟩ => ⟨S100000x128, .f32⟩
  | .hbm, ⟨60, _⟩ => ⟨S1200000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S1200000x1_S1200000x128_0_1 : S1200000x1.BroadcastsInDim S1200000x128 (![0, 1] : Fin 2 → Fin S1200000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x128_S10000x128_1_0_0_1_n_n_wf : DotDims.WF S10000x64 S64x128 S10000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v27) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1200000x128 : Shape := ⟨2, ![1200000, 128]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S1200000x1, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S100000, .f32⟩
  | .hbm, ⟨33, _⟩ => ⟨S1200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x128, .f32⟩
  | .hbm, ⟨59, _⟩ => ⟨S1200000x1, .f32⟩
  | .hbm, ⟨60, _⟩ => ⟨S1200000x128, .f32⟩
  | .hbm, ⟨61, _⟩ => ⟨S1200000x128, .f32⟩
  | .hbm, ⟨62, _⟩ => ⟨S_, .f32⟩
  | .hbm, ⟨63, _⟩ => ⟨S100000x128, .f32⟩
  | .hbm, ⟨64, _⟩ => ⟨S1200000x1, .i32⟩
  | .hbm, ⟨65, _⟩ => ⟨S100000x128, .f32⟩
  | .hbm, ⟨66, _⟩ => ⟨S_, .f32⟩
  | .hbm, ⟨67, _⟩ => ⟨S1200000, .f32⟩
  | .hbm, ⟨68, _⟩ => ⟨S_, .f32⟩
  | .hbm, ⟨69, _⟩ => ⟨S100000, .f32⟩
  | .hbm, ⟨70, _⟩ => ⟨S1200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1200000x1_S1200000x128_0_1 : S1200000x1.BroadcastsInDim S1200000x128 (![0, 1] : Fin 2 → Fin S1200000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.ChainK.lean ====
/-
  The host operations around the two kernels, as functions of the program's arguments. The mean aggregation is
  `segment_sum(X[src] · w, dst) · (1 / max(deg, 1))`: a gather of rows at the sources, a scatter-add at the destinations,
  and a product, row by row, with the reciprocal of the clamped in-degree. The gather, the scatter and the index
  arithmetic are named here and never opened: both programs apply the same ones.
-/
import proofs.«142657_j90477781058261_1_alg».proof.KernelIdeal
import proofs.«142657_j90477781058261_1_alg».proof.Proof.Gen.KernelIdeal
import Idealize.ShloMosaic.PureOps.Ideal

noncomputable section

namespace Cert.KernelIdeal.Chain

open Cert.KernelIdeal Cert.KernelIdeal.Facts₀ Cert.KernelIdeal.Facts Idealize.ShloMosaic

/-! ## The aggregation's host operations, as the program prints them (their contents are never opened) -/

section Chain

variable (ei : IVec S2x1200000 32) (w : FVec Ideal S1200000 .f32)

/-- The edges' source nodes: row 0 of the edge list. -/
def src : IVec S1200000 32 :=
  shapeCast _ (extractStridedSlice S1x1200000 ![0, 0] ei slices_S2x1200000_S1x1200000_0_0) shapeCasts_S1x1200000_S1200000
/-- The edges' destination nodes: row 1 of the edge list. -/
def dst : IVec S1200000 32 :=
  shapeCast _ (extractStridedSlice S1x1200000 ![1, 0] ei slices_S2x1200000_S1x1200000_1_0) shapeCasts_S1x1200000_S1200000
/-- The destinations as the scatter's index column. -/
def dstIx : IVec S1200000x1 32 :=
  broadcastInDim S1200000x1 ![0] bcast_S1200000_S1200000x1_0 (dst ei)
/-- The sources, a negative one counted from the end, as the gather's index column. -/
def srcIx : IVec S1200000x1 32 :=
  broadcastInDim S1200000x1 ![0] bcast_S1200000_S1200000x1_0 (select (cmpi .slt (src ei) (broadcastInDim S1200000 ![] bcast_S_S1200000 (constantI S_ 32 0#32))) (addi (src ei) (broadcastInDim S1200000 ![] bcast_S_S1200000 (constantI S_ 32 100000#32))) (src ei))
/-- One per node. -/
def ones : FVec Ideal S100000 .f32 :=
  broadcastInDim S100000 ![] bcast_S_S100000 (constant (F := Ideal) S_ .f32 0x3F800000#32)
/-- Each node's in-degree: ones summed at the destinations. -/
def deg : FVec Ideal S100000 .f32 :=
  Host.scatterAdd (F := Ideal) scatter_S100000_S1200000x1_S1200000_n_0_0_1 (broadcastInDim S100000 ![] bcast_S_S100000 (constant (F := Ideal) S_ .f32 0x00000000#32)) (dstIx ei) (broadcastInDim S1200000 ![] bcast_S_S1200000 (constant (F := Ideal) S_ .f32 0x3F800000#32))
/-- The mean's denominator: the in-degree, at least one. -/
def degMax : FVec Ideal S100000 .f32 :=
  maximumf (F := Ideal) (deg ei) ones
/-- The edge weights along 64 columns. -/
def wCols64 : FVec Ideal S1200000x64 .f32 :=
  broadcastInDim S1200000x64 ![0, 1] bcast_S1200000x1_S1200000x64_0_1 (broadcastInDim S1200000x1 ![0] bcast_S1200000_S1200000x1_0 w)
/-- The edge weights along 128 columns. -/
def wCols128 : FVec Ideal S1200000x128 .f32 :=
  broadcastInDim S1200000x128 ![0, 1] bcast_S1200000x1_S1200000x128_0_1 (broadcastInDim S1200000x1 ![0] bcast_S1200000_S1200000x1_0 w)
/-- The weighted messages of 64 features summed at the destinations. -/
def scat64 (X : FVec Ideal S100000x64 .f32) : FVec Ideal S100000x64 .f32 :=
  Host.scatterAdd (F := Ideal) scatter_S100000x64_S1200000x1_S1200000x64_1_0_0_1 (broadcastInDim S100000x64 ![] bcast_S_S100000x64 (constant (F := Ideal) S_ .f32 0x00000000#32)) (dstIx ei) (mulf (F := Ideal) (Host.gather gather_S100000x64_S1200000x1_S1200000x64_1_0_n_n_0_1_164 X (srcIx ei)) (wCols64 w))
/-- The weighted messages of 128 features summed at the destinations. -/
def scat128 (X : FVec Ideal S100000x128 .f32) : FVec Ideal S100000x128 .f32 :=
  Host.scatterAdd (F := Ideal) scatter_S100000x128_S1200000x1_S1200000x128_1_0_0_1 (broadcastInDim S100000x128 ![] bcast_S_S100000x128 (constant (F := Ideal) S_ .f32 0x00000000#32)) (dstIx ei) (mulf (F := Ideal) (Host.gather gather_S100000x128_S1200000x1_S1200000x128_1_0_n_n_0_1_1128 X (srcIx ei)) (wCols128 w))
/-- The reciprocal of the denominator, node by node. -/
def invDeg : FVec Ideal S100000 .f32 :=
  Host.divf (F := Ideal) ones (degMax ei)

end Chain

/-! ## What only the kernel's program does: multiply by the reciprocal, and reshape the bias to a row -/

section KernelOnly

variable (ei : IVec S2x1200000 32) (w : FVec Ideal S1200000 .f32)

/-- The reciprocal as a column. -/
def invCol : FVec Ideal S100000x1 .f32 :=
  broadcastInDim S100000x1 ![0] bcast_S100000_S100000x1_0 (invDeg ei)
/-- The mean aggregate of 64 features: the summed messages times the reciprocal, row by row. -/
def agg64 (X : FVec Ideal S100000x64 .f32) : FVec Ideal S100000x64 .f32 :=
  mulf (F := Ideal) (scat64 ei w X) (broadcastInDim S100000x64 ![0, 1] bcast_S100000x1_S100000x64_0_1 (invCol ei))
/-- The mean aggregate of 128 features. -/
def agg128 (X : FVec Ideal S100000x128 .f32) : FVec Ideal S100000x128 .f32 :=
  mulf (F := Ideal) (scat128 ei w X) (broadcastInDim S100000x128 ![0, 1] bcast_S100000x1_S100000x128_0_1 (invCol ei))
/-- The first layer's bias as a row. -/
def bias1 (b : FVec Ideal S128 .f32) : FVec Ideal S1x128 .f32 :=
  shapeCast _ b shapeCasts_S128_S1x128
/-- The second layer's bias as a row. -/
def bias2 (b : FVec Ideal S64 .f32) : FVec Ideal S1x64 .f32 :=
  shapeCast _ b shapeCasts_S64_S1x64

end KernelOnly

end Cert.KernelIdeal.Chain

end
-- ==== Proof.HostVals0.lean ====
/-
  What the first stretch of host operations leaves in the buffers the first kernel region reads, as functions of the
  program's arguments: the mean aggregate of the features, the bias as a row, and the arguments themselves; and what
  it leaves for the second stretch (the edge endpoints, the reciprocal column).
-/
import proofs.«142657_j90477781058261_1_alg».proof.Proof.Gen.KernelIdeal.Frame
import proofs.«142657_j90477781058261_1_alg».proof.Proof.ChainK
import Idealize.ShloMosaic.Lib.StableHlo.Run

noncomputable section

namespace Cert.KernelIdeal.HostVals

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, by name -/

abbrev xA (c : Dev nD) : FVec Ideal S100000x64 .f32 := m ((c.tc : Thread nD τ).loc main_arg0)
abbrev eiA (c : Dev nD) : IVec S2x1200000 32 := m ((c.tc : Thread nD τ).loc main_arg1)
abbrev wA (c : Dev nD) : FVec Ideal S1200000 .f32 := m ((c.tc : Thread nD τ).loc main_arg2)
abbrev wl1A (c : Dev nD) : FVec Ideal S64x128 .f32 := m ((c.tc : Thread nD τ).loc main_arg3)
abbrev bl1A (c : Dev nD) : FVec Ideal S128 .f32 := m ((c.tc : Thread nD τ).loc main_arg4)
abbrev wr1A (c : Dev nD) : FVec Ideal S64x128 .f32 := m ((c.tc : Thread nD τ).loc main_arg5)
abbrev wl2A (c : Dev nD) : FVec Ideal S128x64 .f32 := m ((c.tc : Thread nD τ).loc main_arg6)
abbrev bl2A (c : Dev nD) : FVec Ideal S64 .f32 := m ((c.tc : Thread nD τ).loc main_arg7)
abbrev wr2A (c : Dev nD) : FVec Ideal S128x64 .f32 := m ((c.tc : Thread nD τ).loc main_arg8)

/-! ## The first region's inputs -/

set_option maxHeartbeats 4000000 in
/-- The aggregate the first region reads is the mean aggregate of the features. -/
theorem v1_agg (c : Dev nD) : V1 m ρ c main_v27 = agg64 (eiA m c) (wA m c) (xA m c) := by
  show StableHlo.after hostOps0 (W0 m ρ c) (Proc.devRef .tc main_v27) = _
  after_results_simp
  rfl

set_option maxHeartbeats 4000000 in
theorem v1_x (c : Dev nD) : V1 m ρ c main_arg0 = xA m c := by
  show StableHlo.after hostOps0 (W0 m ρ c) (Proc.devRef .tc main_arg0) = _
  after_results_simp <;> rfl

set_option maxHeartbeats 4000000 in
theorem v1_wl (c : Dev nD) : V1 m ρ c main_arg3 = wl1A m c := by
  show StableHlo.after hostOps0 (W0 m ρ c) (Proc.devRef .tc main_arg3) = _
  after_results_simp <;> rfl

set_option maxHeartbeats 4000000 in
theorem v1_wr (c : Dev nD) : V1 m ρ c main_arg5 = wr1A m c := by
  show StableHlo.after hostOps0 (W0 m ρ c) (Proc.devRef .tc main_arg5) = _
  after_results_simp <;> rfl

set_option maxHeartbeats 4000000 in
/-- The bias the first region reads is the bias vector as one row. -/
theorem v1_bias (c : Dev nD) : V1 m ρ c main_v28 = bias1 (bl1A m c) := by
  show StableHlo.after hostOps0 (W0 m ρ c) (Proc.devRef .tc main_v28) = _
  after_results_simp
  rfl

/-! ## What the second stretch reads of the first -/

set_option maxHeartbeats 4000000 in
theorem w1_src (c : Dev nD) : W1 m ρ c (Proc.devRef .tc main_v1) = src (eiA m c) := by
  show StableHlo.after hostOps0 (W0 m ρ c) (Proc.devRef .tc main_v1) = _
  after_results_simp
  rfl

set_option maxHeartbeats 4000000 in
theorem w1_dst (c : Dev nD) : W1 m ρ c (Proc.devRef .tc main_v3) = dst (eiA m c) := by
  show StableHlo.after hostOps0 (W0 m ρ c) (Proc.devRef .tc main_v3) = _
  after_results_simp
  rfl

set_option maxHeartbeats 4000000 in
theorem w1_inv (c : Dev nD) : W1 m ρ c (Proc.devRef .tc main_v12) = invCol (eiA m c) := by
  show StableHlo.after hostOps0 (W0 m ρ c) (Proc.devRef .tc main_v12) = _
  after_results_simp
  rfl

set_option maxHeartbeats 4000000 in
theorem w1_w (c : Dev nD) : W1 m ρ c (Proc.devRef .tc main_arg2) = wA m c := by
  show StableHlo.after hostOps0 (W0 m ρ c) (Proc.devRef .tc main_arg2) = _
  after_results_simp <;> rfl

set_option maxHeartbeats 4000000 in
theorem w1_bl2 (c : Dev nD) : W1 m ρ c (Proc.devRef .tc main_arg7) = bl2A m c := by
  show StableHlo.after hostOps0 (W0 m ρ c) (Proc.devRef .tc main_arg7) = _
  after_results_simp <;> rfl

end Cert.KernelIdeal.HostVals

end
-- ==== Proof.LibDenseRows.lean ====
/-
  A dense layer read entry by entry, at the ideal values (floats are extended reals, every operation exact).

  A matrix product of an m×k by a k×n matrix, written by a kernel as a product accumulated into a zero splat and by
  a host program as a `dot_general` with no accumulator, is at entry (a, b) the sum over the contracted coordinate c
  of A(a, c) · B(c, b). A bias row [1, n] laid along every row of an m×n matrix is, at (a, b), the row's entry b —
  whether the row is broadcast down the rows by the kernel or by the host. And three facts of the extended reals
  that a mean aggregation meets: the pattern of 1.0 is the real 1; `max d 1` is never zero; and multiplying by the
  reciprocal `1 / d` of a nonzero `d` is dividing by `d`, at the infinities too (the division is `x · d⁻¹` off zero).
-/
import Idealize.ShloMosaic.Lib.StackMember
import Idealize.ShloMosaic.Lib.IdealHost

noncomputable section

namespace Cert.LibDenseRows

open Idealize.ShloMosaic Idealize.ShloMosaic.ValueIdx Idealize.ShloMosaic.StackMember

/-! ## Extended reals -/

/-- The f32 pattern of 1.0 denotes the real number 1. -/
theorem ofBits_one_f32 : Ideal.ofBits .f32 0x3F800000#32 = 1 := by
  simp [Ideal.ofBits, Ideal.ieee]
  norm_cast
  norm_num

/-- A maximum with 1 is at least 1, so it is not zero. -/
theorem max_one_ne_zero (a : EReal) : max a 1 ≠ 0 :=
  ne_of_gt (lt_of_lt_of_le zero_lt_one (le_max_right a 1))

/-- Off zero the ideal division is the product with the inverse, so the product with `1 / d` is the quotient by `d`:
    `x · (1 · d⁻¹) = x · d⁻¹`. No finiteness is needed. -/
theorem mul_one_div (x d : EReal) (hd : d ≠ 0) : x * Ideal.div 1 d = Ideal.div x d := by
  unfold Ideal.div
  rw [if_neg hd, if_neg hd, one_mul]

/-! ## A matrix product at an entry -/

/-- A kernel's product of an m×k by a k×n matrix accumulated into the zero splat, at entry (a, b): the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact dotGeneral_plain_apply prec A B a b

/-! ## A bias row along every row -/

/-- A one-row matrix [1, n] that a kernel broadcasts down m rows, at (a, b), is the row's entry b. -/
theorem broadcastTo_oneRow_apply {α : Type} {m n : Nat} (hb : (⟨2, ![1, n]⟩ : Shape).Broadcasts ⟨2, ![m, n]⟩)
    (y : (⟨2, ![1, n]⟩ : Shape).Idx → α) (a : Fin m) (b : Fin n) :
    broadcastTo ⟨2, ![m, n]⟩ y hb (ix2 a b) = y (ix2 (0 : Fin 1) b) := by
  refine broadcastTo_apply y hb (ix2 a b) (ix2 (0 : Fin 1) b) ?_
  intro ax
  match ax with
  | ⟨0, _⟩ => rfl
  | ⟨1, _⟩ =>
    show b.val = if n = 1 then 0 else b.val
    split
    · have := b.isLt; omega
    · rfl

/-- A one-row matrix [1, n] that the host broadcasts down m rows, the row itself a vector broadcast along axis 1: at
    (a, b) it is the vector's entry b. -/
theorem broadcastInDim_vecRows_apply {α : Type} {m n : Nat}
    (h3 : (⟨1, ![n]⟩ : Shape).BroadcastsInDim ⟨2, ![1, n]⟩ ![1])
    (h4 : (⟨2, ![1, n]⟩ : Shape).BroadcastsInDim ⟨2, ![m, n]⟩ ![0, 1])
    (v : (⟨1, ![n]⟩ : Shape).Idx → α) (a : Fin m) (b : Fin n) :
    broadcastInDim ⟨2, ![m, n]⟩ ![0, 1] h4 (broadcastInDim ⟨2, ![1, n]⟩ ![1] h3 v) (ix2 a b) = v (ix1 b) := by
  rw [broadcastInDim_oneRow_apply]
  refine broadcastInDim_apply ![1] h3 v (ix2 (0 : Fin 1) b) (ix1 b) ?_
  intro ax
  match ax with
  | ⟨0, _⟩ =>
    show b.val = if n = 1 then 0 else b.val
    split
    · have := b.isLt; omega
    · rfl

/-- A vector of n entries reshaped to one row [1, n], at (0, b), is the vector's entry b. -/
theorem shapeCast_oneRow_apply {α : Type} {n : Nat} (h : (⟨1, ![n]⟩ : Shape).ShapeCasts ⟨2, ![1, n]⟩)
    (v : (⟨1, ![n]⟩ : Shape).Idx → α) (b : Fin n) :
    shapeCast ⟨2, ![1, n]⟩ v h (ix2 (0 : Fin 1) b) = v (ix1 b) := by
  refine shapeCast_apply v h (ix2 (0 : Fin 1) b) (ix1 b) ?_
  rw [Shape.rowMajor_val_two, Shape.rowMajor_val_one]
  show b.val = 0 * n + b.val
  omega

/-! ## A per-row value along a matrix's rows -/

/-- A vector of m entries laid as a column [m, 1] and then across k columns: at (a, c) it is the vector's entry a. -/
theorem broadcastInDim_perRow_apply {α : Type} {m k : Nat}
    (h1 : (⟨1, ![m]⟩ : Shape).BroadcastsInDim ⟨2, ![m, 1]⟩ ![0])
    (h2 : (⟨2, ![m, 1]⟩ : Shape).BroadcastsInDim ⟨2, ![m, k]⟩ ![0, 1])
    (d : (⟨1, ![m]⟩ : Shape).Idx → α) (a : Fin m) (c : Fin k) :
    broadcastInDim ⟨2, ![m, k]⟩ ![0, 1] h2 (broadcastInDim ⟨2, ![m, 1]⟩ ![0] h1 d) (ix2 a c) = d (ix1 a) := by
  have e2 := broadcastInDim_apply ![0, 1] h2 (broadcastInDim ⟨2, ![m, 1]⟩ ![0] h1 d) (ix2 a c) (ix2 a (0 : Fin 1)) (by
    intro ax
    match ax with
    | ⟨0, _⟩ =>
      show a.val = if m = 1 then 0 else a.val
      split
      · have := a.isLt; omega
      · rfl
    | ⟨1, _⟩ =>
      show (0 : ℕ) = if (1 : ℕ) = 1 then 0 else _
      simp)
  have e1 := broadcastInDim_apply ![0] h1 d (ix2 a (0 : Fin 1)) (ix1 a) (by
    intro ax
    match ax with
    | ⟨0, _⟩ =>
      show a.val = if m = 1 then 0 else a.val
      split
      · have := a.isLt; omega
      · rfl)
  exact e2.trans e1

/-! ## The dense layer -/

/-- The dense layer of m rows: entry (a, b) is row a of `A` against column b of `Wl`, plus row a of `X` against
    column b of `Wr`, plus entry b of the bias row. -/
def dense {m k n : Nat} (A X : (⟨2, ![m, k]⟩ : Shape).Idx → EReal) (Wl Wr : (⟨2, ![k, n]⟩ : Shape).Idx → EReal)
    (B : (⟨2, ![1, n]⟩ : Shape).Idx → EReal) : (⟨2, ![m, n]⟩ : Shape).Idx → EReal :=
  fun i => (∑ c : Fin k, A (ix2 (i 0) c) * Wl (ix2 c (i 1)) + ∑ c : Fin k, X (ix2 (i 0) c) * Wr (ix2 c (i 1)))
    + B (ix2 (0 : Fin 1) (i 1))

theorem dense_ix2 {m k n : Nat} (A X : (⟨2, ![m, k]⟩ : Shape).Idx → EReal) (Wl Wr : (⟨2, ![k, n]⟩ : Shape).Idx → EReal)
    (B : (⟨2, ![1, n]⟩ : Shape).Idx → EReal) (a : Fin m) (b : Fin n) :
    dense A X Wl Wr B (ix2 a b)
      = (∑ c : Fin k, A (ix2 a c) * Wl (ix2 c b) + ∑ c : Fin k, X (ix2 a c) * Wr (ix2 c b)) + B (ix2 (0 : Fin 1) b) := rfl

/-- The rectifier: the larger of an entry and zero. -/
def relu {s : Shape} (v : s.Idx → EReal) : s.Idx → EReal := fun i => max (v i) 0

/-- What a kernel computes on a block of rows — the two products in bf16 operands accumulated into zero splats and
    added, then the bias row broadcast down the rows and added — is the dense layer of the block, entry by entry: a
    change of float format is the identity at the ideal values. -/
theorem kernel_block_apply {m k n : Nat} (A X : FVec Ideal ⟨2, ![m, k]⟩ .f32) (Wl Wr : FVec Ideal ⟨2, ![k, n]⟩ .f32)
    (B : FVec Ideal ⟨2, ![1, n]⟩ .f32) (h16 : FTy.bits .bf16 < FTy.bits .f32)
    (hb : (⟨2, ![1, n]⟩ : Shape).Broadcasts ⟨2, ![m, n]⟩) (a : Fin m) (b : Fin n) :
    addf (addf (matmul (DotDims.plain m k n) none (truncf .bf16 A h16) (truncf .bf16 Wl h16) (constant ⟨2, ![m, n]⟩ .f32 0x00000000#32))
        (matmul (DotDims.plain m k n) none (truncf .bf16 X h16) (truncf .bf16 Wr h16) (constant ⟨2, ![m, n]⟩ .f32 0x00000000#32)))
      (broadcastTo ⟨2, ![m, n]⟩ B hb) (ix2 a b) = dense A X Wl Wr B (ix2 a b) := by
  rw [addf_apply, addf_apply, matmul_plain_zero_apply, matmul_plain_zero_apply, broadcastTo_oneRow_apply]
  rfl

/-- The host's layer — the aggregate `S` DIVIDED row by row by `d`, times `Wl`, plus the bias, plus `X` times `Wr` — is
    the dense layer of the aggregate MULTIPLIED row by row by `1 / d`, when no `d` is zero: the quotient is the
    product with the reciprocal, and the three-term sum is reordered by commutativity and associativity alone. -/
theorem host_layer_eq {m k n : Nat} (S X : FVec Ideal ⟨2, ![m, k]⟩ .f32) (Wl Wr : FVec Ideal ⟨2, ![k, n]⟩ .f32)
    (bl : FVec Ideal ⟨1, ![n]⟩ .f32) (one d : FVec Ideal ⟨1, ![m]⟩ .f32) (hone : ∀ r, one r = 1) (hd : ∀ r, d r ≠ 0)
    (h1 : (⟨1, ![m]⟩ : Shape).BroadcastsInDim ⟨2, ![m, 1]⟩ ![0])
    (h2 : (⟨2, ![m, 1]⟩ : Shape).BroadcastsInDim ⟨2, ![m, k]⟩ ![0, 1])
    (h3 : (⟨1, ![n]⟩ : Shape).BroadcastsInDim ⟨2, ![1, n]⟩ ![1])
    (h4 : (⟨2, ![1, n]⟩ : Shape).BroadcastsInDim ⟨2, ![m, n]⟩ ![0, 1])
    (hsc : (⟨1, ![n]⟩ : Shape).ShapeCasts ⟨2, ![1, n]⟩) :
    addf (addf (Host.dotGeneral (DotDims.plain m k n) none
          (Host.divf S (broadcastInDim ⟨2, ![m, k]⟩ ![0, 1] h2 (broadcastInDim ⟨2, ![m, 1]⟩ ![0] h1 d))) Wl)
        (broadcastInDim ⟨2, ![m, n]⟩ ![0, 1] h4 (broadcastInDim ⟨2, ![1, n]⟩ ![1] h3 bl)))
      (Host.dotGeneral (DotDims.plain m k n) none X Wr)
    = dense (mulf S (broadcastInDim ⟨2, ![m, k]⟩ ![0, 1] h2 (broadcastInDim ⟨2, ![m, 1]⟩ ![0] h1 (Host.divf one d))))
        X Wl Wr (shapeCast ⟨2, ![1, n]⟩ bl hsc) := by
  funext i
  obtain ⟨a, b, rfl⟩ : ∃ (a : Fin m) (b : Fin n), i = ix2 a b := ⟨i 0, i 1, eq_ix2 i⟩
  rw [addf_apply, addf_apply, dotGeneral_plain_apply, dotGeneral_plain_apply, dense_ix2,
    broadcastInDim_vecRows_apply, shapeCast_oneRow_apply]
  have hS : ∀ c : Fin k,
      Host.divf S (broadcastInDim ⟨2, ![m, k]⟩ ![0, 1] h2 (broadcastInDim ⟨2, ![m, 1]⟩ ![0] h1 d)) (ix2 a c)
        = mulf S (broadcastInDim ⟨2, ![m, k]⟩ ![0, 1] h2 (broadcastInDim ⟨2, ![m, 1]⟩ ![0] h1 (Host.divf one d))) (ix2 a c) := by
    intro c
    rw [hostDivf_apply, mulf_apply, broadcastInDim_perRow_apply, broadcastInDim_perRow_apply, hostDivf_apply, hone,
      mul_one_div _ _ (hd _)]
  simp only [hS]
  exact add_right_comm _ _ _

end Cert.LibDenseRows

end
-- ==== Proof.Pay0.lean ====
/-
  The first layer's kernel body as arithmetic: on a block of 10000 rows it computes the dense layer of the block
  (two products in bf16 operands, added, plus the bias row) and rectifies it. At the ideal values the bf16 casts are the
  identity and each product into a zero accumulator is the plain sum of products.
-/
import proofs.«142657_j90477781058261_1_alg».proof.Proof.Gen.KernelIdeal.Skeleton
import proofs.«142657_j90477781058261_1_alg».proof.Proof.LibDenseRows
import Idealize.ShloMosaic.Lib.Pipeline.Value

noncomputable section

namespace Cert.KernelIdeal.Region0

open Cert.KernelIdeal Cert.KernelIdeal.Gen Cert.LibDenseRows
open Idealize.ShloMosaic Idealize.ShloMosaic.ValueIdx

/-- The kernel's product record is the plain one: contract the left operand's columns with the right's rows. -/
theorem dot_plain : dot_S10000x64_S64x128_S10000x128_1_0_0_1_n_n = DotDims.plain 10000 64 128 := rfl

/-- This layer's activation: the rectifier. -/
abbrev act {s : Shape} (v : s.Idx → EReal) : s.Idx → EReal := relu v

/-- The activation acts entry by entry: equal entries give equal activations. -/
theorem act_ext {s s' : Shape} {v : s.Idx → EReal} {v' : s'.Idx → EReal} {i : s.Idx} {i' : s'.Idx} (h : v i = v' i') :
    act v i = act v' i' := congrArg (max · 0) h

/-- The block's payload at entry (p, q): the rectified dense layer of the loaded blocks. -/
theorem pay_apply (a x : Vec Ideal S10000x64 .f32) (wl wr : Vec Ideal S64x128 .f32) (b : Vec Ideal S1x128 .f32)
    (p : Fin 10000) (q : Fin 128) :
    k0_pay1 (F := Ideal) a x wl wr b (ix2 p q) = act (dense a x wl wr b) (ix2 p q) := by
  unfold k0_pay1
  simp only [shapeCast_self]
  rw [maximumf_apply, broadcast_apply, dot_plain, kernel_block_apply]
  show max _ (Ideal.ofBits .f32 0x00000000#32) = max _ 0
  rw [Ideal.ofBits_zero_f32]

end Cert.KernelIdeal.Region0

end
-- ==== Proof.Region0.lean ====
/-
  A dense layer's region, read as a value. The kernel runs on ten blocks of 10000 rows: at block t it loads rows
  10000·t … 10000·t + 9999 of the aggregate and of the features, the two whole weight matrices and the bias row, and
  stores the layer's activation of the dense layer of those rows. So the result array, after the last block is written
  back, is the activation of the dense layer of the whole arrays: entry (r, j) depends on row r of the two inputs only.
-/
import proofs.«142657_j90477781058261_1_alg».proof.Proof.Gen.KernelIdeal.Frame
import proofs.«142657_j90477781058261_1_alg».proof.Proof.Pay0
import Idealize.ShloMosaic.Lib.Pipeline.Value

noncomputable section

namespace Cert.KernelIdeal.Region0

open Cert.KernelIdeal Cert.KernelIdeal.Gen Cert.LibDenseRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region reads, by name -/

abbrev aggArr (c : Dev nD) : S100000x64.Idx → EReal := V c main_v27
abbrev featArr (c : Dev nD) : S100000x64.Idx → EReal := V c main_arg0
abbrev wlArr (c : Dev nD) : S64x128.Idx → EReal := V c main_arg3
abbrev biasArr (c : Dev nD) : S1x128.Idx → EReal := V c main_v28
abbrev wrArr (c : Dev nD) : S64x128.Idx → EReal := V c main_arg5

/-- The whole-array value of the region's result: the activation of the dense layer of the arrays. -/
abbrev G (c : Dev nD) : S100000x128.Idx → EReal :=
  act (dense (aggArr V c) (featArr V c) (wlArr V c) (wrArr V c) (biasArr V c))

/-- The printed index maps over the ten points: the row windows move one block per point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregate's block at point t is row 10000·t + p of the array. -/
theorem blk_agg (c : Dev nD) (t : Fin cfg0.N) (p : Fin 10000) (k : Fin 64) (r : Fin 100000) (hr : r.val = t.val * 10000 + p.val) :
    (iblk0 V c 0 t : Vec Ideal S10000x64 .f32) (ix2 p k) = aggArr V c (ix2 r k) := by
  obtain ⟨e0, e1, -⟩ := idx_facts t
  unfold iblk0
  rw [View.read_apply]
  show V c main_v27 _ = V c main_v27 _
  congr 1
  funext a
  apply Fin.ext
  match a with
  | ⟨0, _⟩ => show win0_0.index t 0 * 10000 + 1 * p.val = r.val; rw [e0, hr]; omega
  | ⟨1, _⟩ => show win0_0.index t 1 * 64 + 1 * k.val = k.val; rw [e1]; omega

/-- Row p of the features' block at point t is row 10000·t + p of the array. -/
theorem blk_feat (c : Dev nD) (t : Fin cfg0.N) (p : Fin 10000) (k : Fin 64) (r : Fin 100000) (hr : r.val = t.val * 10000 + p.val) :
    (iblk0 V c 1 t : Vec Ideal S10000x64 .f32) (ix2 p k) = featArr V c (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 10000 + 1 * p.val = r.val; rw [e0, hr]; omega
  | ⟨1, _⟩ => show win0_1.index t 1 * 64 + 1 * k.val = k.val; rw [e1]; omega

/-- The left weight's block at every point is the whole matrix. -/
theorem blk_wl (c : Dev nD) (t : Fin cfg0.N) (k : Fin 64) (q : Fin 128) :
    (iblk0 V c 2 t : Vec Ideal S64x128 .f32) (ix2 k q) = wlArr V c (ix2 k q) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t 0 * 64 + 1 * k.val = k.val; rw [e0]; omega
  | ⟨1, _⟩ => show win0_2.index t 1 * 128 + 1 * q.val = q.val; rw [e1]; omega

/-- The bias row's block at every point is the whole row. -/
theorem blk_bias (c : Dev nD) (t : Fin cfg0.N) (z : Fin 1) (q : Fin 128) :
    (iblk0 V c 3 t : Vec Ideal S1x128 .f32) (ix2 z q) = biasArr V c (ix2 z q) := by
  obtain ⟨-, -, -, -, -, -, e0, e1, -⟩ := idx_facts t
  unfold iblk0
  rw [View.read_apply]
  show V c main_v28 _ = V c main_v28 _
  congr 1
  funext a
  apply Fin.ext
  match a with
  | ⟨0, _⟩ => show win0_3.index t 0 * 1 + 1 * z.val = z.val; rw [e0]; omega
  | ⟨1, _⟩ => show win0_3.index t 1 * 128 + 1 * q.val = q.val; rw [e1]; omega

/-- The right weight's block at every point is the whole matrix. -/
theorem blk_wr (c : Dev nD) (t : Fin cfg0.N) (k : Fin 64) (q : Fin 128) :
    (iblk0 V c 4 t : Vec Ideal S64x128 .f32) (ix2 k q) = wrArr V c (ix2 k q) := by
  obtain ⟨-, -, -, -, -, -, -, -, e0, e1, -⟩ := idx_facts t
  unfold iblk0
  rw [View.read_apply]
  show V c main_arg5 _ = V c main_arg5 _
  congr 1
  funext a
  apply Fin.ext
  match a with
  | ⟨0, _⟩ => show win0_4.index t 0 * 64 + 1 * k.val = k.val; rw [e0]; omega
  | ⟨1, _⟩ => show win0_4.index t 1 * 128 + 1 * q.val = q.val; rw [e1]; omega

/-- The dense layer of the loaded blocks at (p, q) is the dense layer of the arrays at (10000·t + p, q): the sums run over
    the same row of each input and the same column of each weight. -/
theorem dense_blk (c : Dev nD) (t : Fin cfg0.N) (p : Fin 10000) (q : Fin 128) (r : Fin 100000) (hr : r.val = t.val * 10000 + p.val) :
    dense (iblk0 V c 0 t : Vec Ideal S10000x64 .f32) (iblk0 V c 1 t : Vec Ideal S10000x64 .f32)
        (iblk0 V c 2 t : Vec Ideal S64x128 .f32) (iblk0 V c 4 t : Vec Ideal S64x128 .f32) (iblk0 V c 3 t : Vec Ideal S1x128 .f32) (ix2 p q)
      = dense (aggArr V c) (featArr V c) (wlArr V c) (wrArr V c) (biasArr V c) (ix2 r q) := by
  rw [dense_ix2, dense_ix2, blk_bias V c t]
  simp only [blk_agg V c t p _ r hr, blk_feat V c t p _ r hr, blk_wl V c t, blk_wr V c t]

/-- Entry (p, q) of the result's block at point t sits at (10000·t + p, q) in the array. -/
theorem out_emb (c : Dev nD) (t : Fin cfg0.N) (p : Fin 10000) (q : Fin 128) (r : Fin 100000) (hr : r.val = t.val * 10000 + p.val) :
    ((cfg0.win 5).blk t).view.emb (ix2 p q) = (ix2 r q : S100000x128.Idx) := by
  obtain ⟨-, -, -, -, -, -, -, -, -, -, e0, e1⟩ := idx_facts t
  funext a
  apply Fin.ext
  match a with
  | ⟨0, _⟩ => show win0_5.index t 0 * 10000 + 1 * p.val = r.val; rw [e0, hr]; omega
  | ⟨1, _⟩ => show win0_5.index t 1 * 128 + 1 * q.val = q.val; rw [e1]; omega

/-- WHAT POINT t WRITES BACK is block t of the layer's value on the arrays as the region finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x128) hz, View.ld_unit_zero (S := S1x128) hz]
  have key : ∀ y : S10000x128.Idx,
      k0_pay1 (F := Ideal) (iblk0 V c 0 t) (iblk0 V c 1 t) (iblk0 V c 2 t) (iblk0 V c 4 t) (iblk0 V c 3 t) y
        = G V c (((cfg0.win 5).blk t).view.emb y) := by
    intro y
    obtain ⟨p, q, rfl⟩ : ∃ (p : Fin 10000) (q : Fin 128), y = ix2 p q := ⟨y 0, y 1, eq_ix2 y⟩
    have hN : cfg0.N = 10 := N_0
    have ht : t.val < 10 := hN ▸ t.isLt
    have hp : p.val < 10000 := p.isLt
    rw [pay_apply, out_emb c t p q ⟨t.val * 10000 + p.val, by omega⟩ rfl]
    exact act_ext (dense_blk V c t p q ⟨t.val * 10000 + p.val, by omega⟩ rfl)
  exact funext key

/-- An index of the array is in point t's block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v29).slice (win0_5.rect t)).set ↔ _
  rw [View.set_slice_whole, Rect.mem_set_unit]
  exact Iff.rfl

/-- Every row of the array is in some point's block: row r is written back at point r / 10000. -/
theorem cover (i : S100000x128.Idx) : ∃ t : Fin cfg0.N, (cfg0.win 5).flush t = true ∧ i ∈ ((cfg0.win 5).blk t).view.set := by
  have hN : cfg0.N = 10 := N_0
  have hi0 : (i 0).val < 100000 := (i 0).isLt
  have hi1 : (i 1).val < 128 := (i 1).isLt
  refine ⟨⟨(i 0).val / 10000, by rw [hN]; omega⟩, flush0_5 _, ?_⟩
  rw [mem_blk]
  obtain ⟨-, -, -, -, -, -, -, -, -, -, e0, e1⟩ := idx_facts ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]
    show (i 0).val / 10000 * 10000 ≤ (i 0).val ∧ (i 0).val < (i 0).val / 10000 * 10000 + 10000
    omega
  | ⟨1, _⟩ =>
    show win0_5.index _ (1 : Fin 2) * 128 ≤ (i 1).val ∧ (i 1).val < win0_5.index _ (1 : Fin 2) * 128 + 128
    rw [e1]
    omega

/-- THE ARRAY after the region: the layer's value on the arrays the region finds, whatever they are. -/
theorem final (c : Dev nD) : (dat0 V c).arrAt 5 cfg0.N = G V c :=
  (dat0 V c).arrAt_eq_of_cover 5 (G V c) (fun t _ => flushed_eq V c t) cover

end Cert.KernelIdeal.Region0

end
-- ==== Proof.HostVals1.lean ====
/-
  The hidden layer and what the second stretch of host operations makes of it. The first region leaves the rectified
  dense layer of the mean aggregate of the features (the hidden layer) in its result buffer; the second stretch gathers
  and scatters the hidden layer's rows exactly as the first did the features', so the second region reads the mean
  aggregate of the hidden layer, the hidden layer itself, the second layer's weights and its bias as a row.
-/
import proofs.«142657_j90477781058261_1_alg».proof.Proof.HostVals0
import proofs.«142657_j90477781058261_1_alg».proof.Proof.Region0

noncomputable section

namespace Cert.KernelIdeal.HostVals

open Cert.KernelIdeal Cert.KernelIdeal.Gen Cert.KernelIdeal.Chain Cert.LibDenseRows
open Idealize.ShloMosaic Idealize.ShloMosaic.TcCoe Idealize.SL.Sem Idealize.ShloMosaic.StableHlo

variable (m : (ℓ : Loc nD τ sig) → Buf (Elt Ideal) ℓ) (ρ : Dev nD → PrngReg)

/-- The hidden layer: the rectified dense layer of the mean aggregate of the features. -/
def hidden (c : Dev nD) : FVec Ideal S100000x128 .f32 :=
  relu (dense (agg64 (eiA m c) (wA m c) (xA m c)) (xA m c) (wl1A m c) (wr1A m c) (bias1 (bl1A m c)))

/-- What the first region leaves in its result buffer is the hidden layer. -/
theorem w2_hidden (c : Dev nD) : W2 m ρ c (Proc.devRef .tc main_v29) = hidden m c := by
  refine (W2_arr m ρ c 5).trans ((Region0.final (V1 m ρ) c).trans ?_)
  show relu (dense (V1 m ρ c main_v27) (V1 m ρ c main_arg0) (V1 m ρ c main_arg3) (V1 m ρ c main_arg5) (V1 m ρ c main_v28)) = _
  rw [v1_agg, v1_x, v1_wl, v1_wr, v1_bias]
  rfl

set_option maxHeartbeats 4000000 in
/-- The aggregate the second region reads is the mean aggregate of the hidden layer. -/
theorem v3_agg (c : Dev nD) : V3 m ρ c main_v44 = agg128 (eiA m c) (wA m c) (hidden m c) := by
  show StableHlo.after hostOps1 (W2 m ρ c) (Proc.devRef .tc main_v44) = _
  after_results_simp
  rw [W2_of_ne m ρ c main_v3 (by decide), W2_of_ne m ρ c main_v1 (by decide), W2_of_ne m ρ c main_arg2 (by decide),
    W2_of_ne m ρ c main_v12 (by decide), w1_dst, w1_src, w1_w, w1_inv, w2_hidden]
  rfl

set_option maxHeartbeats 4000000 in
/-- The second region reads the hidden layer itself as its features. -/
theorem v3_hidden (c : Dev nD) : V3 m ρ c main_v29 = hidden m c := by
  show StableHlo.after hostOps1 (W2 m ρ c) (Proc.devRef .tc main_v29) = _
  after_results_simp
  exact w2_hidden m ρ c

/-- The second layer's weights reach the second region as launched: an input window's array is left as the region found
    it, and the arguments end the run unchanged. -/
theorem v3_wl (c : Dev nD) : V3 m ρ c main_arg6 = wl2A m c :=
  ((W4_arr m ρ c 2).trans (((dat1 (V3 m ρ) c).arrAt_in 2 rfl _).trans (A_eq1 (V3 m ρ) c 2))).symm.trans (W4_main_arg6 m ρ c)
theorem v3_wr (c : Dev nD) : V3 m ρ c main_arg8 = wr2A m c :=
  ((W4_arr m ρ c 4).trans (((dat1 (V3 m ρ) c).arrAt_in 4 rfl _).trans (A_eq1 (V3 m ρ) c 4))).symm.trans (W4_main_arg8 m ρ c)

set_option maxHeartbeats 4000000 in
/-- The bias the second region reads is the second bias vector as one row. -/
theorem v3_bias (c : Dev nD) : V3 m ρ c main_v45 = bias2 (bl2A m c) := by
  show StableHlo.after hostOps1 (W2 m ρ c) (Proc.devRef .tc main_v45) = _
  after_results_simp
  rw [W2_of_ne m ρ c main_arg7 (by decide), w1_bl2]
  rfl

end Cert.KernelIdeal.HostVals

end
-- ==== Proof.Pay1.lean ====
/-
  The second layer's kernel body as arithmetic: on a block of 10000 rows it computes the dense layer of the block
  (two products in bf16 operands, added, plus the bias row), with no rectifier. At the ideal values the bf16 casts are
  the identity and each product into a zero accumulator is the plain sum of products.
-/
import proofs.«142657_j90477781058261_1_alg».proof.Proof.Gen.KernelIdeal.Skeleton
import proofs.«142657_j90477781058261_1_alg».proof.Proof.LibDenseRows
import Idealize.ShloMosaic.Lib.Pipeline.Value

noncomputable section

namespace Cert.KernelIdeal.Region1

open Cert.KernelIdeal Cert.KernelIdeal.Gen Cert.LibDenseRows
open Idealize.ShloMosaic Idealize.ShloMosaic.ValueIdx

/-- The kernel's product record is the plain one: contract the left operand's columns with the right's rows. -/
theorem dot_plain : dot_S10000x128_S128x64_S10000x64_1_0_0_1_n_n = DotDims.plain 10000 128 64 := rfl

/-- This layer's activation: none. -/
abbrev act {s : Shape} (v : s.Idx → EReal) : s.Idx → EReal := v

/-- The activation acts entry by entry: equal entries give equal activations. -/
theorem act_ext {s s' : Shape} {v : s.Idx → EReal} {v' : s'.Idx → EReal} {i : s.Idx} {i' : s'.Idx} (h : v i = v' i') :
    act v i = act v' i' := h

/-- The block's payload at entry (p, q): the dense layer of the loaded blocks. -/
theorem pay_apply (a x : Vec Ideal S10000x128 .f32) (wl wr : Vec Ideal S128x64 .f32) (b : Vec Ideal S1x64 .f32)
    (p : Fin 10000) (q : Fin 64) :
    k1_pay1 (F := Ideal) a x wl wr b (ix2 p q) = act (dense a x wl wr b) (ix2 p q) := by
  unfold k1_pay1
  simp only [shapeCast_self]
  rw [dot_plain, kernel_block_apply]

end Cert.KernelIdeal.Region1

end
-- ==== Proof.KernelValue.lean ====
/-
  The kernel program's result as a function of its arguments: the dense layer of the mean aggregate of the hidden layer,
  with the hidden layer as features — the second region's value on what the second stretch of host operations hands it.
-/
import proofs.«142657_j90477781058261_1_alg».proof.Proof.RunNamed
import proofs.«142657_j90477781058261_1_alg».proof.Proof.HostVals1
import proofs.«142657_j90477781058261_1_alg».proof.Proof.Region1

noncomputable section

namespace Cert.KernelIdeal.HostVals

open Cert.KernelIdeal Cert.KernelIdeal.Gen Cert.KernelIdeal.Chain Cert.LibDenseRows
open Idealize.ShloMosaic Idealize.ShloMosaic.TcCoe Idealize.SL.Sem

variable (m : (ℓ : Loc nD τ sig) → Buf (Elt Ideal) ℓ) (ρ : Dev nD → PrngReg)

/-- The network's output: the dense layer of the mean aggregate of the hidden layer. -/
def out (c : Dev nD) : FVec Ideal S100000x64 .f32 :=
  dense (agg128 (eiA m c) (wA m c) (hidden m c)) (hidden m c) (wl2A m c) (wr2A m c) (bias2 (bl2A m c))

/-- What the second region leaves in the result buffer is the network's output. -/
theorem w4_out (c : Dev nD) : W4 m ρ c (Proc.devRef .tc main_v46) = out m c := by
  refine (W4_arr m ρ c 5).trans ((Region1.final (V3 m ρ) c).trans ?_)
  show dense (V3 m ρ c main_v44) (V3 m ρ c main_v29) (V3 m ρ c main_arg6) (V3 m ρ c main_arg8) (V3 m ρ c main_v45) = _
  rw [v3_agg, v3_hidden, v3_wl, v3_wr, v3_bias]
  rfl

/-- The kernel program's run with its result read: every weakly fair execution terminates, nothing faulting, with the
    result buffer at the network's output and the arguments as launched. -/
theorem run_value : θ_run defs (onTc (τ := τ) (main (F := Ideal))) ⟨m, fun _ => 0, ρ⟩ (fun r => ∀ c : Dev nD,
      r.2.mem ((c.tc : Thread nD τ).loc main_v46) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (w4_out m ρ c), (h c).2⟩) (Cert.KernelIdeal.Named.run_named m ρ)

end Cert.KernelIdeal.HostVals

end
-- ==== Proof.ChainR.lean ====
/-
  The reference's host operations, as functions of the program's arguments. The aggregation's gather, scatter and index
  arithmetic are the ones the kernel's program applies, named here the same way and never opened; the reference
  DIVIDES the summed messages by the clamped in-degree where the kernel's program multiplies by its reciprocal.
-/
import proofs.«142657_j90477781058261_1_alg».proof.ReferenceIdeal
import proofs.«142657_j90477781058261_1_alg».proof.Proof.Gen.ReferenceIdeal
import Idealize.ShloMosaic.PureOps.Ideal

noncomputable section

namespace Cert.ReferenceIdeal.Chain

open Cert.ReferenceIdeal Cert.ReferenceIdeal.Facts₀ Cert.ReferenceIdeal.Facts Idealize.ShloMosaic

/-! ## The aggregation's host operations, as the program prints them (their contents are never opened) -/

section Chain

variable (ei : IVec S2x1200000 32) (w : FVec Ideal S1200000 .f32)

/-- The edges' source nodes: row 0 of the edge list. -/
def src : IVec S1200000 32 :=
  shapeCast _ (extractStridedSlice S1x1200000 ![0, 0] ei slices_S2x1200000_S1x1200000_0_0) shapeCasts_S1x1200000_S1200000
/-- The edges' destination nodes: row 1 of the edge list. -/
def dst : IVec S1200000 32 :=
  shapeCast _ (extractStridedSlice S1x1200000 ![1, 0] ei slices_S2x1200000_S1x1200000_1_0) shapeCasts_S1x1200000_S1200000
/-- The destinations as the scatter's index column. -/
def dstIx : IVec S1200000x1 32 :=
  broadcastInDim S1200000x1 ![0] bcast_S1200000_S1200000x1_0 (dst ei)
/-- The sources, a negative one counted from the end, as the gather's index column. -/
def srcIx : IVec S1200000x1 32 :=
  broadcastInDim S1200000x1 ![0] bcast_S1200000_S1200000x1_0 (select (cmpi .slt (src ei) (broadcastInDim S1200000 ![] bcast_S_S1200000 (constantI S_ 32 0#32))) (addi (src ei) (broadcastInDim S1200000 ![] bcast_S_S1200000 (constantI S_ 32 100000#32))) (src ei))
/-- One per node. -/
def ones : FVec Ideal S100000 .f32 :=
  broadcastInDim S100000 ![] bcast_S_S100000 (constant (F := Ideal) S_ .f32 0x3F800000#32)
/-- Each node's in-degree: ones summed at the destinations. -/
def deg : FVec Ideal S100000 .f32 :=
  Host.scatterAdd (F := Ideal) scatter_S100000_S1200000x1_S1200000_n_0_0_1 (broadcastInDim S100000 ![] bcast_S_S100000 (constant (F := Ideal) S_ .f32 0x00000000#32)) (dstIx ei) (broadcastInDim S1200000 ![] bcast_S_S1200000 (constant (F := Ideal) S_ .f32 0x3F800000#32))
/-- The mean's denominator: the in-degree, at least one. -/
def degMax : FVec Ideal S100000 .f32 :=
  maximumf (F := Ideal) (deg ei) ones
/-- The edge weights along 64 columns. -/
def wCols64 : FVec Ideal S1200000x64 .f32 :=
  broadcastInDim S1200000x64 ![0, 1] bcast_S1200000x1_S1200000x64_0_1 (broadcastInDim S1200000x1 ![0] bcast_S1200000_S1200000x1_0 w)
/-- The edge weights along 128 columns. -/
def wCols128 : FVec Ideal S1200000x128 .f32 :=
  broadcastInDim S1200000x128 ![0, 1] bcast_S1200000x1_S1200000x128_0_1 (broadcastInDim S1200000x1 ![0] bcast_S1200000_S1200000x1_0 w)
/-- The weighted messages of 64 features summed at the destinations. -/
def scat64 (X : FVec Ideal S100000x64 .f32) : FVec Ideal S100000x64 .f32 :=
  Host.scatterAdd (F := Ideal) scatter_S100000x64_S1200000x1_S1200000x64_1_0_0_1 (broadcastInDim S100000x64 ![] bcast_S_S100000x64 (constant (F := Ideal) S_ .f32 0x00000000#32)) (dstIx ei) (mulf (F := Ideal) (Host.gather gather_S100000x64_S1200000x1_S1200000x64_1_0_n_n_0_1_164 X (srcIx ei)) (wCols64 w))
/-- The weighted messages of 128 features summed at the destinations. -/
def scat128 (X : FVec Ideal S100000x128 .f32) : FVec Ideal S100000x128 .f32 :=
  Host.scatterAdd (F := Ideal) scatter_S100000x128_S1200000x1_S1200000x128_1_0_0_1 (broadcastInDim S100000x128 ![] bcast_S_S100000x128 (constant (F := Ideal) S_ .f32 0x00000000#32)) (dstIx ei) (mulf (F := Ideal) (Host.gather gather_S100000x128_S1200000x1_S1200000x128_1_0_n_n_0_1_1128 X (srcIx ei)) (wCols128 w))
/-- The reciprocal of the denominator, node by node. -/
def invDeg : FVec Ideal S100000 .f32 :=
  Host.divf (F := Ideal) ones (degMax ei)

end Chain

/-! ## What only the reference does: divide by the denominator, broadcast the bias, a `dot_general` per product -/

section ReferenceOnly

variable (ei : IVec S2x1200000 32) (w : FVec Ideal S1200000 .f32)

/-- The first layer as the reference computes it. -/
def layer1 (X : FVec Ideal S100000x64 .f32) (Wl : FVec Ideal S64x128 .f32) (bl : FVec Ideal S128 .f32) (Wr : FVec Ideal S64x128 .f32) : FVec Ideal S100000x128 .f32 :=
  addf (F := Ideal) (addf (F := Ideal) (Host.dotGeneral (F := Ideal) dot_S100000x64_S64x128_S100000x128_1_0_0_1_n_n none (Host.divf (F := Ideal) (scat64 ei w X) (broadcastInDim S100000x64 ![0, 1] bcast_S100000x1_S100000x64_0_1 (broadcastInDim S100000x1 ![0] bcast_S100000_S100000x1_0 (degMax ei)))) Wl) (broadcastInDim S100000x128 ![0, 1] bcast_S1x128_S100000x128_0_1 (broadcastInDim S1x128 ![1] bcast_S128_S1x128_1 bl))) (Host.dotGeneral (F := Ideal) dot_S100000x64_S64x128_S100000x128_1_0_0_1_n_n none X Wr)
/-- The rectifier as the reference computes it: the maximum with a splat of zero. -/
def rectify (v : FVec Ideal S100000x128 .f32) : FVec Ideal S100000x128 .f32 :=
  maximumf (F := Ideal) v (broadcastInDim S100000x128 ![] bcast_S_S100000x128 (constant (F := Ideal) S_ .f32 0x00000000#32))
/-- The second layer as the reference computes it. -/
def layer2 (X : FVec Ideal S100000x128 .f32) (Wl : FVec Ideal S128x64 .f32) (bl : FVec Ideal S64 .f32) (Wr : FVec Ideal S128x64 .f32) : FVec Ideal S100000x64 .f32 :=
  addf (F := Ideal) (addf (F := Ideal) (Host.dotGeneral (F := Ideal) dot_S100000x128_S128x64_S100000x64_1_0_0_1_n_n none (Host.divf (F := Ideal) (scat128 ei w X) (broadcastInDim S100000x128 ![0, 1] bcast_S100000x1_S100000x128_0_1 (broadcastInDim S100000x1 ![0] bcast_S100000_S100000x1_0 (degMax ei)))) Wl) (broadcastInDim S100000x64 ![0, 1] bcast_S1x64_S100000x64_0_1 (broadcastInDim S1x64 ![1] bcast_S64_S1x64_1 bl))) (Host.dotGeneral (F := Ideal) dot_S100000x128_S128x64_S100000x64_1_0_0_1_n_n none X Wr)

end ReferenceOnly

end Cert.ReferenceIdeal.Chain

end
-- ==== Proof.RefValue.lean ====
/-
  The reference's result as the kernel's arithmetic. Each layer of the reference divides the summed messages by the
  clamped in-degree, multiplies by the left weight, adds the bias, and adds the features times the right weight. The
  in-degree clamped below by one is never zero, so the quotient is the product with the reciprocal (at the infinities
  too), and the three-term sum may be taken in the kernel's order: each layer is the dense layer of the mean aggregate.
-/
import proofs.«142657_j90477781058261_1_alg».proof.Proof.Gen.ReferenceIdeal.Run
import proofs.«142657_j90477781058261_1_alg».proof.Proof.ChainR
import proofs.«142657_j90477781058261_1_alg».proof.Proof.LibDenseRows

noncomputable section

namespace Cert.ReferenceIdeal.RefValue

open Cert.ReferenceIdeal Cert.ReferenceIdeal.Facts₀ Cert.ReferenceIdeal.Facts Cert.ReferenceIdeal.Chain Cert.LibDenseRows
open Idealize.ShloMosaic Idealize.ShloMosaic.TcCoe Idealize.ShloMosaic.ValueIdx Idealize.SL.Sem

/-- The reference's product records are the plain ones. -/
theorem dot1_plain : dot_S100000x64_S64x128_S100000x128_1_0_0_1_n_n = DotDims.plain 100000 64 128 := rfl
theorem dot2_plain : dot_S100000x128_S128x64_S100000x64_1_0_0_1_n_n = DotDims.plain 100000 128 64 := rfl

/-- A vector reshaped to one row has as many entries. -/
theorem sc128 : S128.ShapeCasts S1x128 := by decide
theorem sc64 : S64.ShapeCasts S1x64 := by decide

section Layers

variable (ei : IVec S2x1200000 32) (w : FVec Ideal S1200000 .f32)

/-- The splat of ones is one at every node. -/
theorem ones_apply (r : S100000.Idx) : ones r = 1 := by
  unfold ones
  rw [broadcastInDim_scalar_apply, constant_apply, ofBits_one_f32]

/-- The clamped in-degree is never zero: it is at least one. -/
theorem degMax_ne_zero (r : S100000.Idx) : degMax ei r ≠ 0 := by
  unfold degMax
  rw [maximumf_apply, ones_apply]
  exact max_one_ne_zero _

/-- The reciprocal of the clamped in-degree along 64 columns, and along 128. -/
def invCols64 : FVec Ideal S100000x64 .f32 :=
  broadcastInDim S100000x64 ![0, 1] bcast_S100000x1_S100000x64_0_1 (broadcastInDim S100000x1 ![0] bcast_S100000_S100000x1_0 (invDeg ei))
def invCols128 : FVec Ideal S100000x128 .f32 :=
  broadcastInDim S100000x128 ![0, 1] bcast_S100000x1_S100000x128_0_1 (broadcastInDim S100000x1 ![0] bcast_S100000_S100000x1_0 (invDeg ei))

/-- The first layer is the dense layer of the mean aggregate. -/
theorem layer1_eq (X : FVec Ideal S100000x64 .f32) (Wl : FVec Ideal S64x128 .f32) (bl : FVec Ideal S128 .f32) (Wr : FVec Ideal S64x128 .f32) :
    layer1 ei w X Wl bl Wr = dense (mulf (scat64 ei w X) (invCols64 ei)) X Wl Wr (shapeCast S1x128 bl sc128) := by
  unfold layer1 invCols64 invDeg
  rw [dot1_plain]
  exact host_layer_eq (scat64 ei w X) X Wl Wr bl ones (degMax ei) ones_apply (degMax_ne_zero ei) _ _ _ _ _

/-- The second layer is the dense layer of the mean aggregate. -/
theorem layer2_eq (X : FVec Ideal S100000x128 .f32) (Wl : FVec Ideal S128x64 .f32) (bl : FVec Ideal S64 .f32) (Wr : FVec Ideal S128x64 .f32) :
    layer2 ei w X Wl bl Wr = dense (mulf (scat128 ei w X) (invCols128 ei)) X Wl Wr (shapeCast S1x64 bl sc64) := by
  unfold layer2 invCols128 invDeg
  rw [dot2_plain]
  exact host_layer_eq (scat128 ei w X) X Wl Wr bl ones (degMax ei) ones_apply (degMax_ne_zero ei) _ _ _ _ _

/-- The reference's rectifier is the larger of the entry and zero. -/
theorem rectify_eq (v : FVec Ideal S100000x128 .f32) : rectify v = relu v := by
  funext i
  unfold rectify relu
  rw [maximumf_apply, broadcastInDim_scalar_apply, constant_apply, Ideal.ofBits_zero_f32]

/-- The whole network in the kernel's arithmetic, over the reference's names. -/
def net (x : FVec Ideal S100000x64 .f32) (Wl1 : FVec Ideal S64x128 .f32) (bl1 : FVec Ideal S128 .f32) (Wr1 : FVec Ideal S64x128 .f32)
    (Wl2 : FVec Ideal S128x64 .f32) (bl2 : FVec Ideal S64 .f32) (Wr2 : FVec Ideal S128x64 .f32) : FVec Ideal S100000x64 .f32 :=
  dense (mulf (scat128 ei w (relu (dense (mulf (scat64 ei w x) (invCols64 ei)) x Wl1 Wr1 (shapeCast S1x128 bl1 sc128)))) (invCols128 ei))
    (relu (dense (mulf (scat64 ei w x) (invCols64 ei)) x Wl1 Wr1 (shapeCast S1x128 bl1 sc128))) Wl2 Wr2 (shapeCast S1x64 bl2 sc64)

end Layers

variable (m : (ℓ : Loc nD τ sig) → Buf (Elt Ideal) ℓ)

/-- The reference run's result term is the two layers applied in turn. -/
theorem res_layers (c : Dev nD) : Cert.ReferenceIdeal.Value.res_main_v60 (F := Ideal) m c
    = layer2 (m ((c.tc : Thread nD τ).loc main_arg1)) (m ((c.tc : Thread nD τ).loc main_arg2))
        (rectify (layer1 (m ((c.tc : Thread nD τ).loc main_arg1)) (m ((c.tc : Thread nD τ).loc main_arg2)) (m ((c.tc : Thread nD τ).loc main_arg0))
          (m ((c.tc : Thread nD τ).loc main_arg3)) (m ((c.tc : Thread nD τ).loc main_arg4)) (m ((c.tc : Thread nD τ).loc main_arg5))))
        (m ((c.tc : Thread nD τ).loc main_arg6)) (m ((c.tc : Thread nD τ).loc main_arg7)) (m ((c.tc : Thread nD τ).loc main_arg8)) := rfl

/-- The reference's result is the network in the kernel's arithmetic. -/
theorem res_net (c : Dev nD) : Cert.ReferenceIdeal.Value.res_main_v60 (F := Ideal) m c
    = net (m ((c.tc : Thread nD τ).loc main_arg1)) (m ((c.tc : Thread nD τ).loc main_arg2)) (m ((c.tc : Thread nD τ).loc main_arg0))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  rw [res_layers, layer1_eq, rectify_eq, layer2_eq]
  rfl

end Cert.ReferenceIdeal.RefValue

end
-- ==== Proof.lean ====
/-
  A two-layer GraphSAGE forward pass: the kernel's program against its jnp reference, over the extended reals.

  Each layer is `agg @ Wl + bl + X @ Wr` on 100000 nodes, where `agg` is the weighted mean of the neighbours' rows:
  `segment_sum(X[src] · w, dst)` over `max(deg, 1)`. The two programs gather and scatter with the same host operations.
  They differ in three places, none of which changes a value at the ideal instance:
    • the kernel's program multiplies the summed messages by `1 / max(deg, 1)`, computed once, where the reference
      divides by `max(deg, 1)` in each layer: the denominator is at least 1, so it is not zero, and off zero the ideal
      quotient `x / d` is `x · d⁻¹`, which is `x · (1 · d⁻¹)` — at the infinities too, so no finiteness is used;
    • the kernel computes `(agg·Wl + X·Wr) + bl` on blocks of 10000 rows, in bf16 operands with products accumulated into
      zero, where the reference computes `(agg·Wl + bl) + X·Wr` with whole `dot_general`s: a change of float format is the
      identity, a product into a zero accumulator is the plain sum of products, an entry of a product depends on its own
      row only, and the three-term sum is reordered by commutativity and associativity of the extended reals' addition;
    • the first layer's rectifier is `max(·, 0)` against a scalar splat in the kernel and against a broadcast zero array in
      the reference.
  So the kernel's result array (read off the two regions' runs and the host operations between them) and the reference's
  result term are the same function of the arguments. The idealization rewrote nothing, so `preserves` is trivial.
-/
import proofs.«142657_j90477781058261_1_alg».proof.Defs
import proofs.«142657_j90477781058261_1_alg».proof.Proof.Gen.Kernel
import proofs.«142657_j90477781058261_1_alg».proof.Proof.Gen.Kernel.Skeleton
import proofs.«142657_j90477781058261_1_alg».proof.Proof.Gen.Kernel.Launch
import proofs.«142657_j90477781058261_1_alg».proof.Proof.Gen.Kernel.Points
import proofs.«142657_j90477781058261_1_alg».proof.Proof.Gen.Kernel.Frame
import proofs.«142657_j90477781058261_1_alg».proof.Proof.Gen.KernelIdeal
import proofs.«142657_j90477781058261_1_alg».proof.Proof.Gen.KernelIdeal.Skeleton
import proofs.«142657_j90477781058261_1_alg».proof.Proof.Gen.KernelIdeal.Launch
import proofs.«142657_j90477781058261_1_alg».proof.Proof.Gen.KernelIdeal.Points
import proofs.«142657_j90477781058261_1_alg».proof.Proof.Gen.KernelIdeal.Frame
import proofs.«142657_j90477781058261_1_alg».proof.Proof.Gen.ReferenceIdeal
import proofs.«142657_j90477781058261_1_alg».proof.Proof.Gen.ReferenceIdeal.Run
import proofs.«142657_j90477781058261_1_alg».proof.Proof.Gen.Pre_finite_inputs
import proofs.«142657_j90477781058261_1_alg».proof.Proof.KernelValue
import proofs.«142657_j90477781058261_1_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-! ## The two results are one function of the arguments -/

/-- The kernel program's output and the reference's network, both written as dense layers of mean aggregates, are the
    same term of the arguments: the two programs print the same gather, scatter, index arithmetic and broadcasts, each
    under its own names. -/
theorem out_eq_net (m : (ℓ : Loc Cert.KernelIdeal.nD Cert.KernelIdeal.τ Cert.KernelIdeal.sig) → Buf (Elt Ideal) ℓ)
    (c : Dev Cert.KernelIdeal.nD) :
    Cert.KernelIdeal.HostVals.out m c
      = Cert.ReferenceIdeal.RefValue.net (Cert.KernelIdeal.HostVals.eiA m c) (Cert.KernelIdeal.HostVals.wA m c)
          (Cert.KernelIdeal.HostVals.xA m c) (Cert.KernelIdeal.HostVals.wl1A m c) (Cert.KernelIdeal.HostVals.bl1A m c)
          (Cert.KernelIdeal.HostVals.wr1A m c) (Cert.KernelIdeal.HostVals.wl2A m c) (Cert.KernelIdeal.HostVals.bl2A m c)
          (Cert.KernelIdeal.HostVals.wr2A m c) := rfl

/-- From memories agreeing on the arguments both idealized programs run, and end with equal results: the kernel's
    result array is the network's output, and so is the reference's result term. -/
theorem algebraic : Cert.algebraic_KernelIdeal_ReferenceIdeal := by
  intro m ρ m' ρ' _ hagree
  refine ⟨fun c => Cert.KernelIdeal.HostVals.out m c, Cert.KernelIdeal.HostVals.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.res_net, h0, h1, h2, h3, h4, h5, h6, h7, h8]
  exact (out_eq_net m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
